-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S4x4096x4096 : Shape := ⟨3, ![4, 4096, 4096]⟩
abbrev S4096 : Shape := ⟨1, ![4096]⟩
abbrev S16384x4096 : Shape := ⟨2, ![16384, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S16384x4096, .f32⟩
  | .hbm, ⟨3, _⟩ => ⟨S1x4096, .f32⟩
  | .hbm, ⟨4, _⟩ => ⟨S16384x4096, .f32⟩
  | .hbm, ⟨5, _⟩ => ⟨S4x4096x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x4096_S16384x4096 : S4x4096x4096.ShapeCasts S16384x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  reduces_S256x4096_S256 : S256x4096.Reduces [1] S256
  shapeCasts_S256_S256x1 : S256.ShapeCasts S256x1
  broadcasts_S256x1_S256x4096 : S256x1.Broadcasts S256x4096
  shapeCasts_S16384x4096_S4x4096x4096 : S16384x4096.ShapeCasts S4x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S16384x4096.size a
  hwx0_2 : ∀ i : grid0.Coords, EltTy.bits .f32 = 32 ∨ (Rect.block (s := S16384x4096) S256x4096.size (cc0_transform_2 i) (hinb0_2 i)).WholeWords (EltTy.packing .f32)

variable [Facts₀]

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S_, .f32⟩
  | .hbm, ⟨3, _⟩ => ⟨S4x4096x4096, .f32⟩
  | .hbm, ⟨4, _⟩ => ⟨S4x4096x4096, .f32⟩
  | .hbm, ⟨5, _⟩ => ⟨S4x4096x4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S1x1x4096, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S_, .f32⟩
  | .hbm, ⟨37, _⟩ => ⟨S4x4096x4096, .f32⟩
  | .hbm, ⟨38, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  bcast_S_S4096 : S_.BroadcastsInDim S4096 (![] : Fin 0 → Fin S4096.rank)
  reducesTo_S4x4096x4096_S4x4096_d2 : S4x4096x4096.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S4x4096x1_S4x4096x4096_0_1_2 : S4x4096x1.BroadcastsInDim S4x4096x4096 (![0, 1, 2] : Fin 3 → Fin S4x4096x4096.rank)

variable [Facts₀]

class Facts : Prop extends Facts₀ where

variable [Facts]
-- ==== Proof.FixedRms.lean ====
/-
  Q16.16 fixed-point RMS normalisation of one row, as a function on the extended reals.

  A value v is carried as the integer nearest to v · 2^16 (ties to even). For a row x of 4096 entries and a scale γ_j:

      sq_k = ⌊ fix(x_k)² / 2^16 ⌋                the squares, shifted back to Q16.16
      mean = ⌊ (Σ_k sq_k) / 4096 ⌋
      rms  = ⌊ √(mean · 2^16) ⌋ + 1              (√(a / S) · S = √(a · S); the added unit keeps the divisor off zero)
      y_j  = ⌊ fix(x_j) · fix(γ_j) / rms ⌋ / 2^16

  Both programs compute exactly this tree of operations on every row, so no law of arithmetic is needed to join them and
  none of the inputs has to be finite: the constants 2^16, 4096 and 1 are kept as the float words that denote them, the same
  word on both sides, and are never evaluated. What differs between the two programs is only how the 16384 rows are laid out
  ([4, 4096, 4096] against [16384, 4096] cut into blocks of 256 rows) and where the sum over a row starts (from the zero word
  on the host, from nothing in the lane reduction).
-/
import Idealize.ShloMosaic.PureOps.Ideal
import Idealize.ShloMosaic.Lib.ValueIdx

noncomputable section

namespace Cert.FixedRms

open Idealize.ShloMosaic Idealize.ShloMosaic.ValueIdx

/-- The Q16.16 scale 2^16 = 65536, as the f32 word that denotes it. -/
abbrev two16 : EReal := Ideal.ofBits .f32 0x47800000#32
/-- The row length 4096, as its f32 word. -/
abbrev rowLen : EReal := Ideal.ofBits .f32 0x45800000#32
/-- One unit in the last place of the fixed-point carrier: the f32 word of 1. -/
abbrev unit : EReal := Ideal.ofBits .f32 0x3F800000#32

/-- Round to the nearest integer below (the infinities fixed). -/
def flr (v : EReal) : EReal := Ideal.liftRound Int.floor v

/-- Quantise to Q16.16: the integer nearest to v · 2^16, ties to even. -/
def toFixed (v : EReal) : EReal := Ideal.liftRound Ideal.roundHalfEven (v * two16)

/-- The square of a value in Q16.16: the Q32.32 product of its carrier with itself, shifted back by 16 bits. -/
def sqFixed (v : EReal) : EReal := flr (Ideal.div (toFixed v * toFixed v) two16)

/-- The divisor of a row: the integer square root of its mean square, in Q16.16, plus one unit. -/
def rowRms (row : Fin 4096 → EReal) : EReal :=
  flr (Ideal.sqrt (flr (Ideal.div (∑ k : Fin 4096, sqFixed (row k)) rowLen) * two16)) + unit

/-- Entry j of the normalised row: the Q32.32 product of the carriers of x_j and γ_j over the row's divisor, floored, read
    back from Q16.16. -/
def rowOut (row : Fin 4096 → EReal) (γ : EReal) (j : Fin 4096) : EReal :=
  Ideal.div (flr (Ideal.div (toFixed (row j) * toFixed γ) (rowRms row))) two16

/-- Two normalised entries agree when their rows, scales and positions do. -/
theorem rowOut_congr {row row' : Fin 4096 → EReal} {γ γ' : EReal} {j j' : Fin 4096}
    (hrow : ∀ k, row k = row' k) (hγ : γ = γ') (hj : j = j') : rowOut row γ j = rowOut row' γ' j' := by
  obtain rfl : row = row' := funext hrow
  subst hγ hj
  rfl

/-- The whole result over [4, 4096, 4096]: entry (b, s, j) is entry j of the normalised row (b, s), scaled by γ_j. -/
def normed (x : (⟨3, ![4, 4096, 4096]⟩ : Shape).Idx → EReal) (γ : (⟨1, ![4096]⟩ : Shape).Idx → EReal) :
    (⟨3, ![4, 4096, 4096]⟩ : Shape).Idx → EReal :=
  fun i => rowOut (fun k => x (ix3 (i 0) (i 1) k)) (γ (ix1 (i 2))) (i 2)

/-- The same rows laid out as [16384, 4096], the scale as a [1, 4096] row: entry (r, j). -/
def normedRows (X : (⟨2, ![16384, 4096]⟩ : Shape).Idx → EReal) (g : (⟨2, ![1, 4096]⟩ : Shape).Idx → EReal) :
    (⟨2, ![16384, 4096]⟩ : Shape).Idx → EReal :=
  fun i => rowOut (fun k => X (ix2 (i 0) k)) (g (ix2 (0 : Fin 1) (i 1))) (i 1)

end Cert.FixedRms

end
-- ==== Proof.RefRows.lean ====
/-
  The reference, read index by index: its result over [4, 4096, 4096] is the fixed-point normalisation of every row.

  The host program is a chain of elementwise operations and broadcasts around one sum over the last axis. Entry (b, s, j) of
  its result reads x only along row (b, s) — at (b, s, j) itself and, through the keepdims sum broadcast back along the row, at
  every (b, s, k) — and γ only at j. The host's sum starts from the zero word, which denotes 0 and drops out.
-/
import proofs.«161226_j1254130450889_1_alg».proof.Proof.Gen.ReferenceIdeal.Read
import proofs.«161226_j1254130450889_1_alg».proof.Proof.FixedRms
import Idealize.ShloMosaic.Lib.ValueIdx
import Idealize.ShloMosaic.PureOps.Ideal.Laws

noncomputable section

namespace Cert.ReferenceIdeal.Rows

open Cert.ReferenceIdeal Cert.ReferenceIdeal.Read Cert.FixedRms
open Idealize.ShloMosaic Idealize.ShloMosaic.ValueIdx

/-- The keepdims sum, broadcast back along the row and read at (b, s, j), sums x over row (b, s): term k is at (b, s, k). -/
theorem row_index (b : Fin 4) (s : Fin 4096) (j k : Fin 4096) :
    idx_main_v10 (idx_main_v11 (idx_main_v24 (ix3 b s j))) k = ix3 b s k :=
  funext fun a => Fin.ext (by match a with | ⟨0, _⟩ => rfl | ⟨1, _⟩ => rfl | ⟨2, _⟩ => rfl)

/-- The scale, broadcast over batch and row and read at (b, s, j), is γ at j. -/
theorem scale_index (b : Fin 4) (s : Fin 4096) (j : Fin 4096) :
    idx_main_v21 (idx_main_v22 (ix3 b s j)) = ix1 j :=
  funext fun a => Fin.ext (by match a with | ⟨0, _⟩ => rfl)

/-- The reference's result is the fixed-point normalisation of its two arguments. -/
theorem result_eq (x : (⟨S4x4096x4096, .f32⟩ : BufTy).Contents (Elt Ideal)) (γ : (⟨S4096, .f32⟩ : BufTy).Contents (Elt Ideal)) :
    val_main_v28 (F := Ideal) x γ = normed x γ := by
  funext i
  obtain ⟨b, s, j, rfl⟩ : ∃ (b : Fin 4) (s : Fin 4096) (j : Fin 4096), i = ix3 b s j := ⟨i 0, i 1, i 2, eq_ix3 i⟩
  rw [val_main_v28_apply, val_main_v27_apply, val_main_cst_6_apply, val_main_v26_apply, val_main_v25_apply,
    val_main_v24_apply, val_main_v23_apply, val_main_v22_apply, val_main_v21_apply, val_main_v20_apply,
    val_main_v19_apply, val_main_cst_5_apply, val_main_v18_apply, val_main_v17_apply, val_main_v16_apply,
    val_main_v15_apply, val_main_cst_4_apply, val_main_v14_apply, val_main_v13_apply, val_main_v12_apply,
    val_main_cst_3_apply, val_main_v11_apply, val_main_v10_apply, val_main_cst_2_apply,
    val_main_v5_apply, val_main_v4_apply, val_main_v3_apply, val_main_cst_0_apply,
    val_main_v2_apply, val_main_v1_apply, val_main_v0_apply, val_main_cst_apply]
  simp only [val_main_v9_apply, val_main_v8_apply, val_main_v7_apply, val_main_cst_1_apply, val_main_v6_apply,
    val_main_v2_apply, val_main_v1_apply, val_main_v0_apply, val_main_cst_apply,
    row_index, scale_index,
    Ideal.ofBits_def, Ideal.mulf_def, Ideal.addf_def, Ideal.hostDivf_def, Ideal.hostUnary_floor_def,
    Ideal.hostUnary_roundeven_def, Ideal.hostUnary_sqrt_def, Ideal.ofBits_zero_f32, zero_add,
    normed, rowOut, rowRms, sqFixed, toFixed, flr]

end Cert.ReferenceIdeal.Rows

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.BodyRows.lean ====
/-
  The kernel body, read index by index: from a block of 256 rows and the scale row it computes, at (p, q), entry q of the
  fixed-point normalisation of row p of the block.

  The body is a tree of elementwise operations around one lane reduction. The layout operations in it are: identity recasts of
  the two loaded blocks; the scale's one row repeated down the 256 rows; the 256 row sums recast as a [256, 1] column; and the
  column of divisors repeated along each row. So entry (p, q) reads the block only along row p, and the scale only at q.
-/
import proofs.«161226_j1254130450889_1_alg».proof.Proof.Gen.KernelIdeal.Skeleton
import proofs.«161226_j1254130450889_1_alg».proof.Proof.FixedRms
import proofs.«161226_j1254130450889_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Rows

open Cert.KernelIdeal Cert.KernelIdeal.Gen Cert.FixedRms
open Idealize.ShloMosaic Idealize.ShloMosaic.ValueIdx Idealize.ShloMosaic.Keepdims

/-! ## The elementwise roundings and the root, at an index -/

theorem floor_apply {s : Shape} {φ : FTy} (a : FVec Ideal s φ) (i : s.Idx) : floor a i = Ideal.liftRound Int.floor (a i) := rfl
theorem roundeven_apply {s : Shape} {φ : FTy} (a : FVec Ideal s φ) (i : s.Idx) :
    roundeven a i = Ideal.liftRound Ideal.roundHalfEven (a i) := rfl
theorem sqrt_apply {s : Shape} {φ : FTy} (a : FVec Ideal s φ) (i : s.Idx) : sqrt a i = Ideal.sqrt (a i) := rfl

/-! ## The lane reduction -/

/-- The sum over the lanes of a [256, 4096] block, at row p, is the sum of the row's 4096 entries (the accumulator is the
    zero word, the sum's neutral element, and contributes nothing). -/
theorem lane_sum (y : FVec Ideal S256x4096 .f32) (h : S256x4096.Reduces [1] S256) (hφ : FKind.Formats .f32)
    (hacc : (0x00000000#32 : BitVec 32) = 0x00000000#32) (p : Fin 256) :
    multiReduction .add [1] S256 y 0x00000000#32 h hφ hacc (ix1 p) = ∑ k : Fin 4096, y (ix2 p k) :=
  (Ideal.multiReduction_add_single y 0x00000000#32 h hφ hacc (ix1 p)).trans
    (Finset.sum_congr rfl fun k _ => congrArg y (funext fun a => Fin.ext (by match a with | ⟨0, _⟩ => rfl | ⟨1, _⟩ => rfl)))

/-! ## The body's result at (p, q) -/

/-- Entry (p, q) of what the body stores is entry q of the normalisation of row p of the loaded block, with the scale's
    entry q. -/
theorem body_apply (x0 : Vec Ideal S256x4096 .f32) (x1 : Vec Ideal S1x4096 .f32) (p : Fin 256) (q : Fin 4096) :
    k0_pay1 (F := Ideal) x0 x1 (ix2 p q) = rowOut (fun k => x0 (ix2 p k)) (x1 (ix2 (0 : Fin 1) q)) q := by
  unfold k0_pay1
  simp only [divf_apply, mulf_apply, addf_apply, floor_apply, roundeven_apply, sqrt_apply, broadcast_apply,
    broadcastTo_a1_ab_apply, broadcastTo_1b_ab_apply, shapeCast_a_a1_apply, shapeCast_self, lane_sum,
    Ideal.ofBits_def, rowOut, rowRms, sqFixed, toFixed, flr]
  rw [lane_sum]
  simp only [divf_apply, mulf_apply, floor_apply, roundeven_apply, broadcast_apply]

/-- The same at any index of the block: entry j reads the block along row `j 0` and the scale at `j 1`. -/
theorem body_at (x0 : Vec Ideal S256x4096 .f32) (x1 : Vec Ideal S1x4096 .f32) (j : S256x4096.Idx) :
    k0_pay1 (F := Ideal) x0 x1 j = rowOut (fun k => x0 (ix2 (j 0) k)) (x1 (ix2 (0 : Fin 1) (j 1))) (j 1) := by
  obtain ⟨p, q, rfl⟩ : ∃ (p : Fin 256) (q : Fin 4096), j = ix2 p q := ⟨j 0, j 1, eq_ix2 j⟩
  exact body_apply x0 x1 p q

end Cert.KernelIdeal.Rows

end
-- ==== Proof.RegionRows.lean ====
/-
  The region's output array: once the 64 grid points have written back, the [16384, 4096] array holds the fixed-point
  normalisation of every row of the [16384, 4096] input array.

  Point t stages rows 256·t … 256·t + 255 of the input (all 4096 columns) and the whole scale row, and writes back the same
  rows of the output. What it writes is the body's result on its blocks, which at (p, q) is entry q of the normalisation of
  row 256·t + p: a block of ONE function of the two arrays. The 64 blocks tile the array, row r lying in block r / 256.
-/
import proofs.«161226_j1254130450889_1_alg».proof.Proof.Gen.KernelIdeal.Frame
import proofs.«161226_j1254130450889_1_alg».proof.Proof.BodyRows
import Idealize.ShloMosaic.Lib.Pipeline.Value

noncomputable section

namespace Cert.KernelIdeal.Region

open Cert.KernelIdeal Cert.KernelIdeal.Gen Cert.KernelIdeal.Rows Cert.FixedRms
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- Every access of the body starts at the origin of its buffer. -/
theorem origin : (![0, 0] : Fin 2 → Nat) = fun _ => 0 := funext fun a => by fin_cases a <;> rfl

/-- Where the three windows' blocks sit at point t, decided over the 64 points: the input's block is on the output's block
    row, the scale's block is the one block of its array, and every block starts at column 0. -/
theorem block_index : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Each of the 64 block rows of the output is some point's. -/
theorem block_onto : ∀ b : Fin 64, ∃ t : Fin cfg0.N, win0_2.index t = ![b.val, 0] :=
  (by decide +kernel : ∀ b : Fin 64, ∃ t : Fin grid0.N, win0_2.index t = ![b.val, 0])

/-- What point t writes back is its block of the row-wise normalisation of the two arrays as the region finds them. -/
theorem written_eq (c : Dev nD) (t : Fin cfg0.N) :
    (dats m 0 c).flushed 2 t
      = ((cfg0.win 2).blk t).view.read (Elt Ideal) (normedRows (V m c main_v0) (V m c main_v1)) := by
  show (cfg0.win 2).cut (grid0.coords t) ((dats m 0 c).after 2 t) = _
  rw [after0_2]
  unfold out0_2
  rw [View.canon_unit_zero origin]
  simp only [View.ld_unit_zero (S := S256x4096) origin, View.ld_unit_zero (S := S1x4096) origin]
  obtain ⟨e0, e1, e2, e3, e4⟩ := block_index t
  funext j
  show k0_pay1 (F := Ideal) (iblk m c 0 t) (iblk m c 1 t) j
    = normedRows (V m c main_v0) (V m c main_v1) (((cfg0.win 2).blk t).view.emb j)
  rw [body_at (iblk m c 0 t) (iblk m c 1 t) j]
  refine rowOut_congr (fun k => ?_) ?_ ?_
  · -- row (j 0) of the input's block is row (block row · 256 + j 0) of the array
    show V m c main_v0 (((cfg0.win 0).blk t).view.emb (ix2 (j 0) k))
      = V m c main_v0 (ix2 ((((cfg0.win 2).blk t).view.emb j) 0) k)
    refine congrArg (V m c main_v0) (funext fun a => Fin.ext ?_)
    match a with
    | ⟨0, _⟩ => show win0_0.index t (0 : Fin 2) * 256 + 1 * (j 0).val = win0_2.index t (0 : Fin 2) * 256 + 1 * (j 0).val; omega
    | ⟨1, _⟩ => show win0_0.index t (1 : Fin 2) * 4096 + 1 * k.val = k.val; omega
  · -- the scale's block is its whole array
    show V m c main_v1 (((cfg0.win 1).blk t).view.emb (ix2 (0 : Fin 1) (j 1)))
      = V m c main_v1 (ix2 (0 : Fin 1) ((((cfg0.win 2).blk t).view.emb j) 1))
    refine congrArg (V m c main_v1) (funext fun a => Fin.ext ?_)
    match a with
    | ⟨0, _⟩ => show win0_1.index t (0 : Fin 2) * 1 + 1 * 0 = 0; omega
    | ⟨1, _⟩ => show win0_1.index t (1 : Fin 2) * 4096 + 1 * (j 1).val = win0_2.index t (1 : Fin 2) * 4096 + 1 * (j 1).val; omega
  · -- the column inside the block is the column of the array
    refine Fin.ext ?_
    show (j 1).val = win0_2.index t (1 : Fin 2) * 4096 + 1 * (j 1).val
    omega

/-- An index of the output array is in point t's block iff each coordinate is in the block's range on its axis. -/
theorem mem_block (t : Fin cfg0.N) (i : S16384x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v2).slice (win0_2.rect t)).set ↔ _
  rw [View.set_slice_whole, Rect.mem_set_unit]
  exact Iff.rfl

/-- Every index of the output array is in some point's block: row r in block row r / 256. -/
theorem covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := block_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- The output array after the region: the normalisation, row by row, of the input array as the region finds it. -/
theorem region_array (c : Dev nD) :
    (dats m 0 c).arrAt 2 cfg0.N = normedRows (V m c main_v0) (V m c main_v1) :=
  (dats m 0 c).arrAt_eq_of_cover 2 _ (fun t _ => written_eq m c t) covered

end Cert.KernelIdeal.Region

end
-- ==== Proof.LibFlattenRows.lean ====
/-
  The two leading axes of a rank-3 array merged into one, and split again, read at an index: an [a, b, c] array recast as
  [n, c] with n = a · b has row (p, s) of the one at row p · b + s of the other, column for column, because both positions are
  the ((p · b + s) · c + k)-th in row-major order.
-/
import Idealize.ShloMosaic.Lib.Pipeline.Value
import Idealize.ShloMosaic.Lib.ValueIdx

noncomputable section

namespace Idealize.ShloMosaic.FlattenRows

open Idealize.ShloMosaic Idealize.ShloMosaic.ValueIdx

variable {α : Type}

/-- An `[a, b, c]` array recast as `[n, c]` reads, at `(r, k)` with `r = p · b + s`, the operand at `(p, s, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (s : Fin b) (k : Fin c) (r : Fin n)
    (hr : r.val = p.val * b + s.val) : shapeCast ⟨2, ![n, c]⟩ x h (ix2 r k) = x (ix3 p s k) :=
  shapeCast_apply x h _ _ (by
    rw [Shape.rowMajor_val_three, Shape.rowMajor_val_two]
    show (p.val * b + s.val) * c + k.val = r.val * c + k.val
    rw [hr])

/-- An `[n, c]` array recast as `[a, b, c]` reads, at `(p, s, k)`, the operand at `(r, k)` with `r = p · b + s`. -/
theorem shapeCast_nc_abc_apply {a b c n : ℕ} (y : (⟨2, ![n, c]⟩ : Shape).Idx → α)
    (h : (⟨2, ![n, c]⟩ : Shape).ShapeCasts ⟨3, ![a, b, c]⟩) (p : Fin a) (s : Fin b) (k : Fin c) (r : Fin n)
    (hr : r.val = p.val * b + s.val) : shapeCast ⟨3, ![a, b, c]⟩ y h (ix3 p s k) = y (ix2 r k) :=
  shapeCast_apply y h _ _ (by
    rw [Shape.rowMajor_val_three, Shape.rowMajor_val_two]
    show r.val * c + k.val = (p.val * b + s.val) * c + k.val
    rw [hr])

end Idealize.ShloMosaic.FlattenRows

end
-- ==== Proof.RowsLayout.lean ====
/-
  The two layouts of the rows are one function: flattening x from [4, 4096, 4096] to [16384, 4096], recasting γ as a
  [1, 4096] row, normalising row by row and splitting the rows back to [4, 4096, 4096] is the normalisation over
  [4, 4096, 4096]. Row (b, s) of the one layout is row 4096 · b + s of the other, entry for entry.
-/
import proofs.«161226_j1254130450889_1_alg».proof.Proof.FixedRms
import proofs.«161226_j1254130450889_1_alg».proof.Proof.LibFlattenRows
import Idealize.ShloMosaic.Lib.ValueLayout

noncomputable section

namespace Cert.FixedRms

open Idealize.ShloMosaic Idealize.ShloMosaic.ValueIdx Idealize.ShloMosaic.FlattenRows

theorem normed_of_rows (x : (⟨3, ![4, 4096, 4096]⟩ : Shape).Idx → EReal) (γ : (⟨1, ![4096]⟩ : Shape).Idx → EReal)
    (hflat : (⟨3, ![4, 4096, 4096]⟩ : Shape).ShapeCasts ⟨2, ![16384, 4096]⟩)
    (hrow : (⟨1, ![4096]⟩ : Shape).ShapeCasts ⟨2, ![1, 4096]⟩)
    (hsplit : (⟨2, ![16384, 4096]⟩ : Shape).ShapeCasts ⟨3, ![4, 4096, 4096]⟩) :
    shapeCast ⟨3, ![4, 4096, 4096]⟩
        (normedRows (shapeCast ⟨2, ![16384, 4096]⟩ x hflat) (shapeCast ⟨2, ![1, 4096]⟩ γ hrow)) hsplit
      = normed x γ := by
  funext i
  obtain ⟨b, s, j, rfl⟩ : ∃ (b : Fin 4) (s : Fin 4096) (j : Fin 4096), i = ix3 b s j := ⟨i 0, i 1, i 2, eq_ix3 i⟩
  have hr : b.val * 4096 + s.val < 16384 := by have := b.isLt; have := s.isLt; omega
  rw [shapeCast_nc_abc_apply _ hsplit b s j ⟨b.val * 4096 + s.val, hr⟩ rfl]
  show rowOut (fun k => shapeCast ⟨2, ![16384, 4096]⟩ x hflat (ix2 ⟨b.val * 4096 + s.val, hr⟩ k))
      (shapeCast ⟨2, ![1, 4096]⟩ γ hrow (ix2 (0 : Fin 1) j)) j
    = rowOut (fun k => x (ix3 b s k)) (γ (ix1 j)) j
  exact rowOut_congr (fun k => shapeCast_abc_nc_apply x hflat b s k ⟨b.val * 4096 + s.val, hr⟩ rfl)
    (shapeCast_a_1a_apply γ hrow 0 j) rfl

end Cert.FixedRms

end
-- ==== Proof.KernelRun.lean ====
/-
  The kernel program's run, read as a value: its result over [4, 4096, 4096] is the fixed-point normalisation of its
  two arguments.

  Around the region the program only changes layouts: x is flattened to 16384 rows and γ recast as a one-row array before it,
  and the region's output rows are split back to [4, 4096, 4096] after it. With the region's array being the row-wise
  normalisation of what it finds, the three recasts cancel against the two layouts of the rows.
-/
import proofs.«161226_j1254130450889_1_alg».proof.Proof.Gen.KernelIdeal.Frame
import proofs.«161226_j1254130450889_1_alg».proof.Proof.RegionRows
import proofs.«161226_j1254130450889_1_alg».proof.Proof.RowsLayout
import Idealize.ShloMosaic.Lib.StableHlo.Run
import Idealize.ShloMosaic.Lib.Pipeline.Value

noncomputable section

namespace Cert.KernelIdeal.Whole

open Cert.KernelIdeal Cert.KernelIdeal.Gen Cert.KernelIdeal.Region Cert.FixedRms
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The region finds, as its input array, x flattened to [16384, 4096]. -/
theorem rows_in (c : Dev nD) :
    (V m c main_v0 : S16384x4096.Idx → EReal)
      = shapeCast S16384x4096 (m ((c : Thread nD τ).loc main_arg0)) shapeCasts_S4x4096x4096_S16384x4096 := by
  show StableHlo.after hostOps0 (fun b => m (c, b)) (Proc.devRef .tc main_v0) = _
  after_results
  rfl

/-- The region finds, as its scale array, γ recast as one row of 4096. -/
theorem scale_in (c : Dev nD) :
    (V m c main_v1 : S1x4096.Idx → EReal)
      = shapeCast S1x4096 (m ((c : Thread nD τ).loc main_arg1)) shapeCasts_S4096_S1x4096 := by
  show StableHlo.after hostOps0 (fun b => m (c, b)) (Proc.devRef .tc main_v1) = _
  after_results
  rfl

/-- The program's result: the region's output rows split back to [4, 4096, 4096]. -/
theorem result_split (c : Dev nD) :
    (Pipeline.afterTail₀ cfgs (dats m) 0 (V0 m) [hostOps1] c main_v3 : S4x4096x4096.Idx → EReal)
      = shapeCast S4x4096x4096 ((dats m 0 c).arrAt 2 cfg0.N) shapeCasts_S16384x4096_S4x4096x4096 := by
  unfold Pipeline.afterTail₀
  show StableHlo.after hostOps1 _ (Proc.devRef .tc main_v3) = _
  after_results
  rw [Pipeline.withArrays_arr spec0 launch0.win.arr_inj c _ _ 2]
  rfl

/-- The program's result is the normalisation of its arguments. -/
theorem result_eq (c : Dev nD) :
    Pipeline.afterTail₀ cfgs (dats m) 0 (V0 m) [hostOps1] c main_v3
      = normed (m ((c : Thread nD τ).loc main_arg0)) (m ((c : Thread nD τ).loc main_arg1)) := by
  refine (result_split m c).trans ?_
  rw [region_array m c, rows_in m c, scale_in m c]
  exact normed_of_rows _ _ _ _ _

/-- Every weakly fair execution of the kernel program terminates with its result at the normalisation of the arguments it
    was launched with, and the arguments unchanged. -/
theorem run : θ_run defs (onTc (τ := τ) (main (F := Ideal))) ⟨m, fun _ => 0, ρ⟩ (fun r => ∀ c : Dev nD,
      r.2.mem ((c.tc : Thread nD τ).loc main_v3)
        = normed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Whole

end
-- ==== Proof.lean ====
/-
  Q16.16 fixed-point RMS normalisation: the kernel against its jnp reference, over the extended reals.

  Both programs quantise x and γ to Q16.16 carriers (round to nearest even of v · 2^16) and compute, for every row of 4096
  entries, y_j = ⌊ fix(x_j) · fix(γ_j) / rms ⌋ / 2^16 with rms = ⌊ √(⌊ (Σ_k ⌊ fix(x_k)² / 2^16 ⌋) / 4096 ⌋ · 2^16) ⌋ + 1
  (Proof/FixedRms.lean). The reference does so over [4, 4096, 4096] on the host; the kernel flattens x to 16384 rows, runs one
  grid of 64 points over blocks of 256 rows, and splits the rows back. It is the same tree of operations on the same rows —
  rounding, floor, root and quotient mean the same functions on the host and in the kernel, and a lane sum and a host sum
  are the same sum, the host's starting from a zero that drops out — so the two results are equal entry by entry for all
  inputs, and the precondition is never opened.

    Proof/RefRows.lean     the reference's result is the normalisation            (over the reference's run, read by index)
    Proof/BodyRows.lean    the kernel body at (p, q) is entry q of row p's normalisation
    Proof/RegionRows.lean  the 64 written-back blocks tile the output array: it is the row-wise normalisation
    Proof/RowsLayout.lean  the flattened layout and the [4, 4096, 4096] layout of the rows are one function
    Proof/KernelRun.lean   the kernel program's result is the normalisation

  The kernel's idealisation rewrote nothing, so it preserves the kernel trivially; the three frames are the programs' runs.
-/
import proofs.«161226_j1254130450889_1_alg».proof.Defs
import proofs.«161226_j1254130450889_1_alg».proof.Proof.Gen.Kernel
import proofs.«161226_j1254130450889_1_alg».proof.Proof.Gen.Kernel.Skeleton
import proofs.«161226_j1254130450889_1_alg».proof.Proof.Gen.Kernel.Launch
import proofs.«161226_j1254130450889_1_alg».proof.Proof.Gen.Kernel.Points
import proofs.«161226_j1254130450889_1_alg».proof.Proof.Gen.Kernel.Frame
import proofs.«161226_j1254130450889_1_alg».proof.Proof.Gen.KernelIdeal
import proofs.«161226_j1254130450889_1_alg».proof.Proof.Gen.KernelIdeal.Skeleton
import proofs.«161226_j1254130450889_1_alg».proof.Proof.Gen.KernelIdeal.Launch
import proofs.«161226_j1254130450889_1_alg».proof.Proof.Gen.KernelIdeal.Points
import proofs.«161226_j1254130450889_1_alg».proof.Proof.Gen.KernelIdeal.Frame
import proofs.«161226_j1254130450889_1_alg».proof.Proof.Gen.ReferenceIdeal
import proofs.«161226_j1254130450889_1_alg».proof.Proof.Gen.Pre_finite_inputs
import proofs.«161226_j1254130450889_1_alg».proof.Proof.Gen.ReferenceIdeal.Run
import proofs.«161226_j1254130450889_1_alg».proof.Proof.Gen.ReferenceIdeal.Read
import proofs.«161226_j1254130450889_1_alg».proof.Proof.RefRows
import proofs.«161226_j1254130450889_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealised kernel. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation of the kernel. -/
theorem preserves : Cert.preserves_Kernel_KernelIdeal := trivial

/-- From memories that agree on x and γ both programs end with the fixed-point normalisation of x by γ as their result. -/
theorem algebraic : Cert.algebraic_KernelIdeal_ReferenceIdeal := by
  intro m ρ m' ρ' _ hagree
  refine ⟨fun c => Cert.FixedRms.normed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v28_eq _ _).trans (Cert.ReferenceIdeal.Rows.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
